-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S8192x4096 .f32) (main_arg1 : FVec F S4096x4096 .f32) (main_arg2 : FVec F S4096 .f32) (main_arg3 : FVec F S_ .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S1x1 : Shape := ⟨2, ![1, 1]⟩
abbrev S1024x1024 : Shape := ⟨2, ![1024, 1024]⟩
abbrev S1x1024 : Shape := ⟨2, ![1, 1024]⟩

abbrev nBuf : Space → Nat
  | .hbm => 7
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S1x4096, .f32⟩
  | .hbm, ⟨5, _⟩ => ⟨S1x1, .f32⟩
  | .hbm, ⟨6, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1x1, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S1x4096 : S4096.ShapeCasts S1x4096
  shapeCasts_S_S1x1 : S_.ShapeCasts S1x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one run of the body leaves behind, case by case, as the body's own arithmetic of what it was handed.

  Every load and every store of the body goes through its WHOLE 1024 × 1024 (or 1 × 1024, 1 × 1) buffer, so a load
  reads the buffer's contents and the last store to a buffer is what the buffer ends holding:
  * at the first stretch of a contraction the scratch is zeroed, read back, and the tile product added;
  * at a middle stretch the tile product is added to what the stretch before left;
  * at the last stretch the same, and then the output tile is the scratch scaled, plus the bias row.
  Nothing here depends on the number format: the statements hold at any instance.
-/
import proofs.«134363_j52793738002579_1_alg».proof.Proof.Gen.KernelIdeal.Frame
import Idealize.ShloMosaic.Lib.Pipeline.Value
import Idealize.ShloMosaic.Lib.Tactic

set_option maxRecDepth 16384

noncomputable section

namespace QLinear.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin S1024x1024.rank → Nat) = fun _ => 0 := funext fun a => by fin_cases a <;> rfl
theorem hzRow : (![0, 0] : Fin S1x1024.rank → Nat) = fun _ => 0 := funext fun a => by fin_cases a <;> rfl
theorem hzCell : (![0, 0] : Fin S1x1.rank → Nat) = fun _ => 0 := funext fun a => by fin_cases a <;> rfl

/-- First stretch: the scratch ends at the tile product added to the zero just stored. -/
theorem scratch_first (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (x0 : Vec F S1024x1024 .f32) (x1 : Vec F S1024x1024 .f32) (x2 : Vec F S1x1024 .f32) (x3 : Vec F S1x1 .f32) :
    sout0_A_0 c i arg3 harg3 arg4 harg4 arg5 harg5 arg6 harg6 arg7 harg7 arg8 harg8 hc0 hc1 x0 x1 x2 x3 = k0_pay2 x0 x1 k0_pay1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) hz]
  simp only [View.readAt_eq_ld, harg3.read_unread, harg4.read_unread, View.readCov_unit_zero (S := S1024x1024) _ hz, View.ld_unit_zero (S := S1024x1024) hz]

/-- Middle stretch: the scratch ends at the tile product added to what it held. -/
theorem scratch_middle (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (x0 : Vec F S1024x1024 .f32) (x1 : Vec F S1024x1024 .f32) (x2 : Vec F S1x1024 .f32) (x3 : Vec F S1x1 .f32) (xs0 : Vec F S1024x1024 .f32) :
    sout0_B_0 c i arg3 harg3 arg4 harg4 arg5 harg5 arg6 harg6 arg7 harg7 arg8 harg8 hc0 hc1 x0 x1 x2 x3 xs0 = k0_pay2 x0 x1 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz]
  simp only [View.readAt_eq_ld, harg3.read_unread, harg4.read_unread, harg8.read_unread, View.ld_unit_zero (S := S1024x1024) hz]

/-- Last stretch: the scratch as at a middle stretch, -/
theorem scratch_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 : Vec F S1024x1024 .f32) (x1 : Vec F S1024x1024 .f32) (x2 : Vec F S1x1024 .f32) (x3 : Vec F S1x1 .f32) (xs0 : Vec F S1024x1024 .f32) :
    sout0_C_0 c i arg3 harg3 arg4 harg4 arg5 harg5 arg6 harg6 arg7 harg7 arg8 harg8 hc0 hc1 x0 x1 x2 x3 xs0 = k0_pay2 x0 x1 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg8.read_unread, View.ld_unit_zero (S := S1024x1024) hz]

/-- and the output tile is that scratch scaled, plus the bias row. -/
theorem out_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 : Vec F S1024x1024 .f32) (x1 : Vec F S1024x1024 .f32) (x2 : Vec F S1x1024 .f32) (x3 : Vec F S1x1 .f32) (xs0 : Vec F S1024x1024 .f32) :
    out0_C_4 c i arg3 harg3 arg4 harg4 arg5 harg5 arg6 harg6 arg7 harg7 arg8 harg8 hc0 hc1 x0 x1 x2 x3 xs0 = k0_pay3 (k0_pay2 x0 x1 xs0) x3 x2 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread, harg8.read_unread, View.readCov_unit_zero (S := S1024x1024) _ hz, View.ld_unit_zero (S := S1024x1024) hz, View.ld_unit_zero (S := S1x1024) hzRow, View.ld_unit_zero (S := S1x1) hzCell]

end QLinear.Pieces

end
-- ==== Proof.Payloads.lean ====
/-
  The body's three stores, each read at ONE entry of its 1024 × 1024 tile, over the extended reals.

  * the reset stores zero;
  * the accumulation stores  acc(p, q) + Σ_{k < 1024} x(p, k) · w(q, k) : the tile product contracts the LAST axis of
    both operands (x-tile times the transpose of the w-tile), into a zero accumulator, and the two narrowing casts
    before it are the identity on extended reals;
  * the epilogue stores  acc(p, q) · s + bias(q) : the scale is the one entry of a 1 × 1 tile, the bias a 1 × 1024 row
    repeated down the rows.
-/
import proofs.«134363_j52793738002579_1_alg».proof.Proof.Gen.KernelIdeal.Skeleton
import Idealize.ShloMosaic.Lib.ValueIdx
import Idealize.ShloMosaic.Lib.Pipeline.Value
import Idealize.ShloMosaic.PureOps.Ideal.Laws

noncomputable section

namespace QLinear.Payload

open Cert.KernelIdeal Cert.KernelIdeal.Gen Idealize.ShloMosaic Idealize.ShloMosaic.ValueIdx

/-! ## The tile product's index maps: output entry (p, q), contraction index k ↦ left (p, k), right (q, k) -/

theorem lhs_tile_0 (i : S1024x1024.Idx) (r : dot_S1024x1024_S1024x1024_S1024x1024_1_1_0_0_n_n.contr.Idx) :
    (dot_S1024x1024_S1024x1024_S1024x1024_1_1_0_0_n_n.lhsIdx i r 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_tile_1 (i : S1024x1024.Idx) (r : dot_S1024x1024_S1024x1024_S1024x1024_1_1_0_0_n_n.contr.Idx) :
    (dot_S1024x1024_S1024x1024_S1024x1024_1_1_0_0_n_n.lhsIdx i r 1).val = (r ⟨0, by decide⟩).val :=
  dot_S1024x1024_S1024x1024_S1024x1024_1_1_0_0_n_n.lhsIdx_val_of_single rfl i r
theorem rhs_tile_0 (i : S1024x1024.Idx) (r : dot_S1024x1024_S1024x1024_S1024x1024_1_1_0_0_n_n.contr.Idx) :
    (dot_S1024x1024_S1024x1024_S1024x1024_1_1_0_0_n_n.rhsIdx i r 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_tile_1 (i : S1024x1024.Idx) (r : dot_S1024x1024_S1024x1024_S1024x1024_1_1_0_0_n_n.contr.Idx) :
    (dot_S1024x1024_S1024x1024_S1024x1024_1_1_0_0_n_n.rhsIdx i r 1).val = (r ⟨0, by decide⟩).val :=
  dot_S1024x1024_S1024x1024_S1024x1024_1_1_0_0_n_n.rhsIdx_val_of_single rfl i r

/-- The tile product into a zero accumulator, at entry (p, q): Σ_k x(p, k) · w(q, k). -/
theorem tile_product_apply (x w : FVec Ideal S1024x1024 .bf16) (p q : Fin 1024) :
    matmul dot_S1024x1024_S1024x1024_S1024x1024_1_1_0_0_n_n none x w (constant S1024x1024 .f32 0x00000000#32) (ix2 p q)
      = ∑ k : Fin 1024, x (ix2 p k) * w (ix2 q k) := by
  show FloatOps.matmul dot_S1024x1024_S1024x1024_S1024x1024_1_1_0_0_n_n none x w (constant S1024x1024 .f32 0x00000000#32) (ix2 p q) = _
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_tile_0 _ _
    | ⟨1, _⟩ => exact (lhs_tile_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_tile_0 _ _
    | ⟨1, _⟩ => exact (rhs_tile_1 _ _).trans hk)
  rw [el, er]

/-! ## The three stores at an entry -/

/-- The reset stores zero everywhere. -/
theorem reset_apply (i : S1024x1024.Idx) : k0_pay1 (F := Ideal) i = 0 := by
  unfold k0_pay1
  rw [shapeCast_self]
  exact Ideal.ofBits_zero_f32

/-- The accumulation: what the scratch held, plus the tile product. -/
theorem step_apply (x w acc : Vec Ideal S1024x1024 .f32) (p q : Fin 1024) :
    k0_pay2 (F := Ideal) x w acc (ix2 p q) = acc (ix2 p q) + ∑ k : Fin 1024, x (ix2 p k) * w (ix2 q k) := by
  unfold k0_pay2
  rw [shapeCast_self]
  refine (addf_apply _ _ _).trans ?_
  exact congrArg (acc (ix2 p q) + ·)
    (tile_product_apply (truncf (F := Ideal) .bf16 x bitsLt_bf16_f32) (truncf (F := Ideal) .bf16 w bitsLt_bf16_f32) p q)

/-- The epilogue: the accumulated tile scaled by the one scale entry, the bias row added. -/
theorem epilogue_apply (acc : Vec Ideal S1024x1024 .f32) (s : Vec Ideal S1x1 .f32) (b : Vec Ideal S1x1024 .f32) (p q : Fin 1024) :
    k0_pay3 (F := Ideal) acc s b (ix2 p q) = acc (ix2 p q) * s (ix2 0 0) + b (ix2 0 q) := by
  unfold k0_pay3
  refine (addf_apply _ _ _).trans ?_
  refine congrArg₂ (· + ·) ?_ ?_
  · refine (mulf_apply _ _ _).trans ?_
    exact congrArg (acc (ix2 p q) * ·) (congrArg s (funext fun a => Fin.ext (by
      match a with
      | ⟨0, _⟩ => rfl
      | ⟨1, _⟩ => rfl)))
  · rw [shapeCast_self]
    exact broadcastTo_apply b broadcasts_S1x1024_S1024x1024 (ix2 p q) (ix2 0 q) (fun a => by
      match a with
      | ⟨0, _⟩ => rfl
      | ⟨1, _⟩ => rfl)

end QLinear.Payload

end
-- ==== Proof.Tiles.lean ====
/-
  The tiles the body is handed at grid point t, as entries of the arrays the region finds.

  The grid is 8 × 4 × 4, row-major: point t has row tile t / 16, column tile (t / 4) % 4 and contraction stretch t % 4.
  * the x tile is rows 1024·(t/16) …, columns 1024·(t%4) … of x;
  * the w tile is rows 1024·((t/4)%4) …, columns 1024·(t%4) … of w;
  * the bias tile is columns 1024·((t/4)%4) … of the bias, laid out as one row;
  * the scale tile is the scale, laid out as 1 × 1;
  * the output tile is rows 1024·(t/16) …, columns 1024·((t/4)%4) … of the result.
  The bias row and the scale cell are what two reshapes before the region make of the one-axis bias and the scalar.
-/
import proofs.«134363_j52793738002579_1_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace QLinear.Tiles

open Cert.KernelIdeal Cert.KernelIdeal.Gen Idealize.ShloMosaic Idealize.ShloMosaic.TcCoe Idealize.SL.Sem Idealize.ShloMosaic.ValueIdx
open Idealize.ShloMosaic.StableHlo

variable {F : FTy → Type} [FloatOps F]
variable (m : (ℓ : Loc nD τ sig) → Buf (Elt F) ℓ)

/-- Which tile of its array each window holds at point `t`, decided over the grid's 128 points. -/
theorem tile_of_point : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = 0 ∧ win0_3.index t (1 : Fin 2) = 0
    ∧ win0_4.index t (0 : Fin 2) = t.val / 16 ∧ win0_4.index t (1 : Fin 2) = t.val / 4 % 4 :=
  (by decide +kernel : ∀ t : Fin grid0.N, _)

/-! ## The tiles, named at their literal types -/

abbrev xTile (c : Dev nD) (t : Fin cfg0.N) : Vec F S1024x1024 .f32 := iblk m c 0 t
abbrev wTile (c : Dev nD) (t : Fin cfg0.N) : Vec F S1024x1024 .f32 := iblk m c 1 t
abbrev biasTile (c : Dev nD) (t : Fin cfg0.N) : Vec F S1x1024 .f32 := iblk m c 2 t
abbrev scaleTile (c : Dev nD) (t : Fin cfg0.N) : Vec F S1x1 .f32 := iblk m c 3 t

/-- The arrays as the region finds them, at their literal types. -/
abbrev xArr (c : Dev nD) : Vec F S8192x4096 .f32 := V m c main_arg0
abbrev wArr (c : Dev nD) : Vec F S4096x4096 .f32 := V m c main_arg1
abbrev biasRow (c : Dev nD) : Vec F S1x4096 .f32 := V m c main_v0
abbrev scaleCell (c : Dev nD) : Vec F S1x1 .f32 := V m c main_v1

/-! ## Each tile's entry as an entry of its array -/

theorem xTile_apply (c : Dev nD) (t : Fin cfg0.N) (p k : Fin 1024) (r : Fin 8192) (j : Fin 4096)
    (hr : r.val = 1024 * (t.val / 16) + p.val) (hj : j.val = 1024 * (t.val % 4) + k.val) :
    xTile m c t (ix2 p k) = xArr m c (ix2 r j) := by
  obtain ⟨e0, e1, -⟩ := tile_of_point t
  show V m c main_arg0 (((cfg0.win 0).blk t).view.emb (ix2 p k)) = V m c main_arg0 (ix2 r j)
  refine congrArg (V m c main_arg0) (funext fun a => Fin.ext ?_)
  match a with
  | ⟨0, _⟩ => show win0_0.index t (0 : Fin 2) * 1024 + 1 * p.val = r.val; omega
  | ⟨1, _⟩ => show win0_0.index t (1 : Fin 2) * 1024 + 1 * k.val = j.val; omega

theorem wTile_apply (c : Dev nD) (t : Fin cfg0.N) (q k : Fin 1024) (o j : Fin 4096)
    (ho : o.val = 1024 * (t.val / 4 % 4) + q.val) (hj : j.val = 1024 * (t.val % 4) + k.val) :
    wTile m c t (ix2 q k) = wArr m c (ix2 o j) := by
  obtain ⟨-, -, e0, e1, -⟩ := tile_of_point t
  show V m c main_arg1 (((cfg0.win 1).blk t).view.emb (ix2 q k)) = V m c main_arg1 (ix2 o j)
  refine congrArg (V m c main_arg1) (funext fun a => Fin.ext ?_)
  match a with
  | ⟨0, _⟩ => show win0_1.index t (0 : Fin 2) * 1024 + 1 * q.val = o.val; omega
  | ⟨1, _⟩ => show win0_1.index t (1 : Fin 2) * 1024 + 1 * k.val = j.val; omega

theorem biasTile_apply (c : Dev nD) (t : Fin cfg0.N) (q : Fin 1024) (o : Fin 4096)
    (ho : o.val = 1024 * (t.val / 4 % 4) + q.val) :
    biasTile m c t (ix2 0 q) = biasRow m c (ix2 0 o) := by
  obtain ⟨-, -, -, -, e0, e1, -⟩ := tile_of_point t
  show V m c main_v0 (((cfg0.win 2).blk t).view.emb (ix2 0 q)) = V m c main_v0 (ix2 0 o)
  refine congrArg (V m c main_v0) (funext fun a => Fin.ext ?_)
  match a with
  | ⟨0, _⟩ => show win0_2.index t (0 : Fin 2) * 1 + 1 * 0 = 0; omega
  | ⟨1, _⟩ => show win0_2.index t (1 : Fin 2) * 1024 + 1 * q.val = o.val; omega

theorem scaleTile_apply (c : Dev nD) (t : Fin cfg0.N) :
    scaleTile m c t (ix2 0 0) = scaleCell m c (ix2 0 0) := by
  obtain ⟨-, -, -, -, -, -, e0, e1, -⟩ := tile_of_point t
  show V m c main_v1 (((cfg0.win 3).blk t).view.emb (ix2 0 0)) = V m c main_v1 (ix2 0 0)
  refine congrArg (V m c main_v1) (funext fun a => Fin.ext ?_)
  match a with
  | ⟨0, _⟩ => show win0_3.index t (0 : Fin 2) * 1 + 1 * 0 = 0; omega
  | ⟨1, _⟩ => show win0_3.index t (1 : Fin 2) * 1 + 1 * 0 = 0; omega

/-! ## The two reshapes before the region -/

/-- The bias row is the one-axis bias, entry for entry. -/
theorem biasRow_apply (c : Dev nD) (o : Fin 4096) :
    biasRow m c (ix2 0 o) = m ((c : Thread nD τ).loc main_arg2) (ix1 o) := by
  have e : (V m c main_v0 : S1x4096.Idx → Elt F .f32)
      = shapeCast S1x4096 (m ((c : Thread nD τ).loc main_arg2)) shapeCasts_S4096_S1x4096 := by
    dsimp only [Gen.V, Gen.hostOps0]; after_results; rfl
  show (V m c main_v0 : S1x4096.Idx → Elt F .f32) (ix2 0 o) = _
  rw [e]
  exact shapeCast_apply _ shapeCasts_S4096_S1x4096 (ix2 0 o) (ix1 o) (by
    rw [Shape.rowMajor_val_one, Shape.rowMajor_val_two]; show o.val = 0 * 4096 + o.val; omega)

/-- The scale cell is the scalar. -/
theorem scaleCell_apply (c : Dev nD) :
    scaleCell m c (ix2 0 0) = m ((c : Thread nD τ).loc main_arg3) ix0 := by
  have e : (V m c main_v1 : S1x1.Idx → Elt F .f32)
      = shapeCast S1x1 (m ((c : Thread nD τ).loc main_arg3)) shapeCasts_S_S1x1 := by
    dsimp only [Gen.V, Gen.hostOps0]; after_results; rfl
  show (V m c main_v1 : S1x1.Idx → Elt F .f32) (ix2 0 0) = _
  rw [e]
  exact shapeCast_apply _ shapeCasts_S_S1x1 (ix2 0 0) ix0 (by
    have h := (S_.rowMajor ix0).isLt
    have h1 : S_.numel = 1 := by decide
    rw [Shape.rowMajor_val_two]; show _ = 0 * 1 + 0; omega)

end QLinear.Tiles

end
-- ==== Proof.Accumulation.lean ====
/-
  The scratch across one contraction, and the output tile at its end.

  The four points 4u, 4u+1, 4u+2, 4u+3 share one output tile and walk the four stretches of the contraction. Point n
  adds its ADDEND  addend(n)(p, q) = Σ_{k < 1024} xTile(n)(p, k) · wTile(n)(q, k)  to the scratch — onto a fresh zero at
  4u, onto what the point before left otherwise. So after point t the scratch is  0 + Σ_{s ≤ t % 4} addend(4·(t/4) + s),
  and at the last stretch (t % 4 = 3) the output tile is that sum over all four stretches, times the scale, plus the
  bias row. Addition on the extended reals is commutative and associative, so no finiteness is needed here.
-/
import proofs.«134363_j52793738002579_1_alg».proof.Proof.Gen.KernelIdeal.Value
import proofs.«134363_j52793738002579_1_alg».proof.Proof.Pieces
import proofs.«134363_j52793738002579_1_alg».proof.Proof.Payloads
import proofs.«134363_j52793738002579_1_alg».proof.Proof.Tiles
import Idealize.ShloMosaic.Lib.Pipeline.Value

set_option maxRecDepth 16384

noncomputable section

namespace QLinear.Accumulation

open Cert.KernelIdeal Cert.KernelIdeal.Gen Idealize.ShloMosaic Idealize.ShloMosaic.TcCoe Idealize.SL.Sem Idealize.ShloMosaic.ValueIdx
open QLinear.Tiles

variable (m : (ℓ : Loc nD τ sig) → Buf (Elt Ideal) ℓ)

/-- Point `n`'s addend at tile entry `y` (zero past the grid, where it is never used). -/
def addend (c : Dev nD) (n : ℕ) (y : S1024x1024.Idx) : EReal :=
  if h : n < cfg0.N then ∑ k : Fin 1024, xTile m c ⟨n, h⟩ (ix2 (y 0) k) * wTile m c ⟨n, h⟩ (ix2 (y 1) k) else 0

theorem addend_of_lt (c : Dev nD) (n : ℕ) (h : n < cfg0.N) (p q : Fin 1024) :
    addend m c n (ix2 p q) = ∑ k : Fin 1024, xTile m c ⟨n, h⟩ (ix2 p k) * wTile m c ⟨n, h⟩ (ix2 q k) := by
  unfold addend; rw [dif_pos h]

/-- At the first stretch of a contraction the scratch is left at zero plus the point's addend. -/
theorem first_stretch (c : Dev nD) (n : ℕ) (hb : n < cfg0.N) (h0 : n % 4 = 0) (acc : Vec Ideal S1024x1024 .f32)
    (y : S1024x1024.Idx) : Cert.KernelIdeal.Value.scAt0_0 m c n hb acc y = 0 + addend m c n y := by
  have h1 : ¬n % 4 = 3 := by omega
  obtain ⟨p, q, rfl⟩ : ∃ (p q : Fin 1024), y = ix2 p q := ⟨y 0, y 1, eq_ix2 y⟩
  unfold Cert.KernelIdeal.Value.scAt0_0
  rw [dif_pos h0, dif_neg h1]
  refine (congrFun (Pieces.scratch_first (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) scM0_0 (Memref.isWhole_whole _) ((hcond0_0 ⟨n, hb⟩).mpr h0) (fun h => h1 ((hcond0_1 ⟨n, hb⟩).mp h)) (xTile m c ⟨n, hb⟩) (wTile m c ⟨n, hb⟩) (biasTile m c ⟨n, hb⟩) (scaleTile m c ⟨n, hb⟩)) (ix2 p q)).trans ?_
  rw [Payload.step_apply, Payload.reset_apply, addend_of_lt m c n hb]

/-- At every later stretch the point's addend is added to what the scratch held. -/
theorem later_stretch (c : Dev nD) (n : ℕ) (hb : n < cfg0.N) (h0 : ¬n % 4 = 0) (acc : Vec Ideal S1024x1024 .f32)
    (y : S1024x1024.Idx) : Cert.KernelIdeal.Value.scAt0_0 m c n hb acc y = acc y + addend m c n y := by
  obtain ⟨p, q, rfl⟩ : ∃ (p q : Fin 1024), y = ix2 p q := ⟨y 0, y 1, eq_ix2 y⟩
  unfold Cert.KernelIdeal.Value.scAt0_0
  by_cases h1 : n % 4 = 3
  · rw [dif_neg h0, dif_pos h1]
    refine (congrFun (Pieces.scratch_last (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) scM0_0 (Memref.isWhole_whole _) (fun h => h0 ((hcond0_0 ⟨n, hb⟩).mp h)) ((hcond0_1 ⟨n, hb⟩).mpr h1) (xTile m c ⟨n, hb⟩) (wTile m c ⟨n, hb⟩) (biasTile m c ⟨n, hb⟩) (scaleTile m c ⟨n, hb⟩) acc) (ix2 p q)).trans ?_
    rw [Payload.step_apply, addend_of_lt m c n hb]
  · rw [dif_neg h0, dif_neg h1]
    refine (congrFun (Pieces.scratch_middle (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) scM0_0 (Memref.isWhole_whole _) (fun h => h0 ((hcond0_0 ⟨n, hb⟩).mp h)) (fun h => h1 ((hcond0_1 ⟨n, hb⟩).mp h)) (xTile m c ⟨n, hb⟩) (wTile m c ⟨n, hb⟩) (biasTile m c ⟨n, hb⟩) (scaleTile m c ⟨n, hb⟩) acc) (ix2 p q)).trans ?_
    rw [Payload.step_apply, addend_of_lt m c n hb]

/-- THE SCRATCH after point `t`: zero plus the addends of its contraction's points up to `t`. -/
theorem scratch_after (c : Dev nD) (t : Fin cfg0.N) (y : S1024x1024.Idx) :
    (outsAt0 m c t.val t.isLt).2 y = 0 + ∑ s ∈ Finset.range (t.val % 4 + 1), addend m c (4 * (t.val / 4) + s) y := by
  rw [Cert.KernelIdeal.Value.soutsAt0_0_eq m c t]
  exact Pipeline.accAt_add_apply (ι := S1024x1024.Idx) (β := EReal) _ _ (fun _ => (0 : EReal)) (addend m c) (4 * (t.val / 4)) 3
    (fun h y => first_stretch m c _ h (by omega) _ y)
    (fun n h acc y hlo hhi => later_stretch m c n h (by omega) acc y)
    (t.val % 4) (by omega) _ y

/-- THE OUTPUT TILE at a last stretch: the four addends summed from zero, scaled, the bias row added. -/
theorem out_tile (c : Dev nD) (t : Fin cfg0.N) (h3 : t.val % 4 = 3) (p q : Fin 1024) :
    (outsAt0 m c t.val t.isLt).1 (ix2 p q)
      = (0 + ∑ s ∈ Finset.range 4, addend m c (4 * (t.val / 4) + s) (ix2 p q)) * scaleTile m c t (ix2 0 0)
        + biasTile m c t (ix2 0 q) := by
  have h0 : ¬t.val % 4 = 0 := by omega
  have e : (outsAt0 m c t.val t.isLt).1
      = k0_pay3 (F := Ideal) ((outsAt0 m c t.val t.isLt).2) (scaleTile m c t) (biasTile m c t) := by
    rw [outsAt0_C m c t h0 h3]
    dsimp only
    rw [Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h3) (xTile m c t) (wTile m c t) (biasTile m c t) (scaleTile m c t) _,
      Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h3) (xTile m c t) (wTile m c t) (biasTile m c t) (scaleTile m c t) _]
  rw [e, Payload.epilogue_apply, scratch_after m c t (ix2 p q), h3]

end QLinear.Accumulation

end
-- ==== Proof.ScaledContraction.lean ====
/-
  The algebra that joins the two programs, over abstract families (no program is imported here).

  The kernel forms one output element as  (z + Σ_s Σ_k x·w) · a + b : the contraction over 4096 cut into four
  stretches of 1024, accumulated from a zero z, scaled by a AFTER the sum, then the bias b added.
  The reference forms it as  (Σ_k x·(w·a)) + b : the right factor scaled BEFORE the one contraction over 4096.

  On the extended reals these differ at infinities: with a = +∞, x = (1, -1), w = (1, 1) the first is 0·∞ = 0 and
  the second is ∞ + (-∞) = -∞. So moving the scale across the sum is stated for families of REAL values, which is
  what the precondition (every input finite) provides. Regrouping the sum into stretches needs no finiteness:
  addition on the extended reals is commutative and associative.
-/
import Mathlib.Data.EReal.Operations
import Mathlib.Algebra.BigOperators.Fin
import Mathlib.Algebra.BigOperators.Ring.Finset
import Mathlib.Tactic.Ring

namespace QLinear

open Finset

/-- The inclusion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For real values, scaling a contraction after summing is scaling its right factor before:
    (Σ x·w)·a = Σ x·(w·a). -/
theorem scale_sum_real {ι : Type*} (s : Finset ι) (x w : ι → ℝ) (a : ℝ) :
    (∑ i ∈ s, (x i : EReal) * (w i : EReal)) * (a : EReal) = ∑ i ∈ s, (x i : EReal) * ((w i : EReal) * (a : EReal)) := by
  have h1 : ∀ i, (x i : EReal) * (w i : EReal) = ((x i * w i : ℝ) : EReal) := fun i => (EReal.coe_mul _ _).symm
  have h2 : ∀ i, (x i : EReal) * ((w i : EReal) * (a : EReal)) = ((x i * (w i * a) : ℝ) : EReal) := fun i => by
    rw [EReal.coe_mul, EReal.coe_mul]
  simp only [h1, h2]
  rw [← coe_sum, ← coe_sum, ← EReal.coe_mul, Finset.sum_mul]
  exact congrArg _ (Finset.sum_congr rfl fun i _ => by ring)

/-- The same for extended-real families every entry of which is a real. -/
theorem scale_sum {ι : Type*} [Fintype ι] (x w : ι → EReal) (a : EReal)
    (hx : ∀ i, ∃ r : ℝ, x i = r) (hw : ∀ i, ∃ r : ℝ, w i = r) (ha : ∃ r : ℝ, a = r) :
    (∑ i, x i * w i) * a = ∑ i, x i * (w i * a) := by
  obtain ⟨ar, rfl⟩ := ha
  choose xr hxr using hx
  choose wr hwr using hw
  obtain rfl : x = fun i => (xr i : EReal) := funext hxr
  obtain rfl : w = fun i => (wr i : EReal) := funext hwr
  exact scale_sum_real Finset.univ xr wr ar

/-- A sum over `b·n` consecutive naturals is the sum over `n` stretches of length `b`. -/
theorem sum_range_stretches {M : Type*} [AddCommMonoid M] (g : ℕ → M) (b : ℕ) :
    ∀ n : ℕ, ∑ i ∈ range (b * n), g i = ∑ s ∈ range n, ∑ k ∈ range b, g (b * s + k)
  | 0 => by simp
  | n + 1 => by rw [Nat.mul_succ, Finset.sum_range_add, sum_range_stretches g b n, Finset.sum_range_succ]

/-- The contraction over 4096 is four contractions over 1024, stretch `s` holding the indices `1024·s + k`. -/
theorem sum_four_stretches {M : Type*} [AddCommMonoid M] (g : ℕ → M) :
    ∑ k : Fin 4096, g k.val = ∑ s ∈ range 4, ∑ k : Fin 1024, g (1024 * s + k.val) := by
  rw [Fin.sum_univ_eq_sum_range g 4096, show (4096 : ℕ) = 1024 * 4 from rfl, sum_range_stretches]
  exact Finset.sum_congr rfl fun s _ => (Fin.sum_univ_eq_sum_range (fun k => g (1024 * s + k)) 1024).symm

/-- ONE OUTPUT ELEMENT. The kernel's form — four stretches accumulated from a zero, scaled after the sum, bias added —
    is the reference's form — one contraction with the right factor scaled first, bias added — when the two
    factors and the scale are real. The bias may be any extended real: it is added last on both sides. -/
theorem element_eq (x w : ℕ → EReal) (a b z : EReal) (hz : z = 0)
    (hx : ∀ k : Fin 4096, ∃ r : ℝ, x k.val = r) (hw : ∀ k : Fin 4096, ∃ r : ℝ, w k.val = r) (ha : ∃ r : ℝ, a = r) :
    (z + ∑ s ∈ range 4, ∑ k : Fin 1024, x (1024 * s + k.val) * w (1024 * s + k.val)) * a + b
      = (∑ k : Fin 4096, x k.val * (w k.val * a)) + b := by
  rw [hz, zero_add, ← sum_four_stretches (fun k => x k * w k),
    scale_sum (fun k : Fin 4096 => x k.val) (fun k : Fin 4096 => w k.val) a hx hw ha]

end QLinear
-- ==== Proof.Result.lean ====
/-
  THE RESULT both programs are claimed to compute, as one function of the four argument arrays:

      result(r, o) = Σ_{k < 4096} x(r, k) · (w(o, k) · s)  +  bias(o)

  over the extended reals — row r of x contracted with row o of the scaled weight, the bias of output column o
  added. No program is imported here.
-/
import Idealize.ShloMosaic.PureOps.Ideal
import Idealize.ShloMosaic.Lib.ValueIdx

noncomputable section

namespace QLinear

open Idealize.ShloMosaic Idealize.ShloMosaic.ValueIdx

/-- The entry at row `r`, column `o`. -/
def resultAt (X : (⟨2, ![8192, 4096]⟩ : Shape).Idx → EReal) (W : (⟨2, ![4096, 4096]⟩ : Shape).Idx → EReal)
    (B : (⟨1, ![4096]⟩ : Shape).Idx → EReal) (s : (⟨0, ![]⟩ : Shape).Idx → EReal) (r : Fin 8192) (o : Fin 4096) : EReal :=
  (∑ k : Fin 4096, X (ix2 r k) * (W (ix2 o k) * s ix0)) + B (ix1 o)

/-- The whole array. -/
def result (X : (⟨2, ![8192, 4096]⟩ : Shape).Idx → EReal) (W : (⟨2, ![4096, 4096]⟩ : Shape).Idx → EReal)
    (B : (⟨1, ![4096]⟩ : Shape).Idx → EReal) (s : (⟨0, ![]⟩ : Shape).Idx → EReal) :
    (⟨2, ![8192, 4096]⟩ : Shape).Idx → EReal :=
  fun i => resultAt X W B s ⟨(i 0).val, (i 0).isLt⟩ ⟨(i 1).val, (i 1).isLt⟩

theorem result_ix2 (X : (⟨2, ![8192, 4096]⟩ : Shape).Idx → EReal) (W : (⟨2, ![4096, 4096]⟩ : Shape).Idx → EReal)
    (B : (⟨1, ![4096]⟩ : Shape).Idx → EReal) (s : (⟨0, ![]⟩ : Shape).Idx → EReal) (r : Fin 8192) (o : Fin 4096) :
    result X W B s (ix2 r o) = resultAt X W B s r o := rfl

end QLinear

end
-- ==== Proof.KernelValue.lean ====
/-
  The kernel computes `result`: after the run the output array holds it, provided x, w and the scale hold reals.

  Entry (r, o) of the output lies in the tile of row tile r / 1024 and column tile o / 1024, written back once, at the
  last stretch of that tile's contraction. There the tile holds the four stretch sums added from zero, times the
  scale, plus the bias; the stretches 1024·s + k, s < 4, k < 1024, are the contraction indices below 4096, so the
  entry is  (0 + Σ_s Σ_k x(r, 1024s + k) · w(o, 1024s + k)) · scale + bias(o), which for real x, w, scale is
  Σ_k x(r, k) · (w(o, k) · scale) + bias(o). The 32 write-backs cover the array.
-/
import proofs.«134363_j52793738002579_1_alg».proof.Proof.Accumulation
import proofs.«134363_j52793738002579_1_alg».proof.Proof.ScaledContraction
import proofs.«134363_j52793738002579_1_alg».proof.Proof.Result

set_option maxRecDepth 16384

noncomputable section

namespace QLinear.Kernel

open Cert.KernelIdeal Cert.KernelIdeal.Gen Idealize.ShloMosaic Idealize.ShloMosaic.TcCoe Idealize.SL.Sem Idealize.ShloMosaic.ValueIdx
open Idealize.ShloMosaic.Pipeline (Dat)
open QLinear.Tiles QLinear.Accumulation

variable (m : (ℓ : Loc nD τ sig) → Buf (Elt Ideal) ℓ) (ρ : Dev nD → PrngReg)

/-! ## The four argument arrays as launched, at their literal types -/

abbrev xIn (c : Dev nD) : S8192x4096.Idx → EReal := m ((c : Thread nD τ).loc main_arg0)
abbrev wIn (c : Dev nD) : S4096x4096.Idx → EReal := m ((c : Thread nD τ).loc main_arg1)
abbrev bIn (c : Dev nD) : S4096.Idx → EReal := m ((c : Thread nD τ).loc main_arg2)
abbrev sIn (c : Dev nD) : S_.Idx → EReal := m ((c : Thread nD τ).loc main_arg3)

theorem xArr_eq (c : Dev nD) : xArr m c = xIn m c := V_main_arg0 m c
theorem wArr_eq (c : Dev nD) : wArr m c = wIn m c := V_main_arg1 m c

/-- Row `r` of x and row `o` of w along the contraction axis, as functions of a natural (zero past 4096). -/
def rowX (c : Dev nD) (r : Fin 8192) (n : ℕ) : EReal := if h : n < 4096 then xIn m c (ix2 r ⟨n, h⟩) else 0
def rowW (c : Dev nD) (o : Fin 4096) (n : ℕ) : EReal := if h : n < 4096 then wIn m c (ix2 o ⟨n, h⟩) else 0

theorem rowX_of_lt (c : Dev nD) (r : Fin 8192) (n : ℕ) (h : n < 4096) : rowX m c r n = xIn m c (ix2 r ⟨n, h⟩) := dif_pos h
theorem rowW_of_lt (c : Dev nD) (o : Fin 4096) (n : ℕ) (h : n < 4096) : rowW m c o n = wIn m c (ix2 o ⟨n, h⟩) := dif_pos h

/-- ONE ENTRY (p, q) of the tile written back at a last stretch is `result` at the array entry (r, o) it lands on. -/
theorem entry_eq (c : Dev nD) (t : Fin cfg0.N) (h3 : t.val % 4 = 3)
    (hX : ∀ i, ∃ r : ℝ, xIn m c i = (r : EReal)) (hW : ∀ i, ∃ r : ℝ, wIn m c i = (r : EReal))
    (hs : ∃ r : ℝ, sIn m c ix0 = (r : EReal))
    (p q : Fin 1024) (r : Fin 8192) (o : Fin 4096)
    (hr : r.val = 1024 * (t.val / 16) + p.val) (ho : o.val = 1024 * (t.val / 4 % 4) + q.val) :
    (outsAt0 m c t.val t.isLt).1 (ix2 p q) = QLinear.resultAt (xIn m c) (wIn m c) (bIn m c) (sIn m c) r o := by
  have hN : t.val < 128 := lt_of_lt_of_eq t.isLt (show cfg0.N = 128 from N_0)
  have hadd : ∀ s ∈ Finset.range 4, addend m c (4 * (t.val / 4) + s) (ix2 p q)
      = ∑ k : Fin 1024, rowX m c r (1024 * s + k.val) * rowW m c o (1024 * s + k.val) := by
    intro s hs4
    have hs' : s < 4 := Finset.mem_range.mp hs4
    have hb : 4 * (t.val / 4) + s < cfg0.N :=
      lt_of_lt_of_eq (show 4 * (t.val / 4) + s < 128 by omega) (show cfg0.N = 128 from N_0).symm
    rw [addend_of_lt m c _ hb]
    refine Finset.sum_congr rfl fun k _ => ?_
    have hk : 1024 * s + k.val < 4096 := by have := k.isLt; omega
    rw [xTile_apply m c ⟨_, hb⟩ p k r ⟨1024 * s + k.val, hk⟩
        (by show r.val = 1024 * ((4 * (t.val / 4) + s) / 16) + p.val; omega)
        (by show 1024 * s + k.val = 1024 * ((4 * (t.val / 4) + s) % 4) + k.val; omega),
      wTile_apply m c ⟨_, hb⟩ q k o ⟨1024 * s + k.val, hk⟩
        (by show o.val = 1024 * ((4 * (t.val / 4) + s) / 4 % 4) + q.val; omega)
        (by show 1024 * s + k.val = 1024 * ((4 * (t.val / 4) + s) % 4) + k.val; omega),
      xArr_eq, wArr_eq, rowX_of_lt m c r _ hk, rowW_of_lt m c o _ hk]
  rw [out_tile m c t h3 p q, Finset.sum_congr rfl hadd, scaleTile_apply, scaleCell_apply,
    biasTile_apply m c t q o ho, biasRow_apply]
  show (0 + ∑ s ∈ Finset.range 4, ∑ k : Fin 1024, rowX m c r (1024 * s + k.val) * rowW m c o (1024 * s + k.val)) * sIn m c ix0
      + bIn m c (ix1 o) = _
  rw [QLinear.element_eq (rowX m c r) (rowW m c o) (sIn m c ix0) (bIn m c (ix1 o)) 0 rfl
    (fun k => by rw [rowX_of_lt m c r _ k.isLt]; exact hX _) (fun k => by rw [rowW_of_lt m c o _ k.isLt]; exact hW _) hs]
  unfold QLinear.resultAt
  refine congrArg₂ (fun a b : EReal => a + b) (Finset.sum_congr rfl fun k _ => ?_) rfl
  rw [rowX_of_lt m c r _ k.isLt, rowW_of_lt m c o _ k.isLt]

/-- The same with the tile entry and the array entry as whole indices, tied by their coordinates. -/
theorem entry_eq' (c : Dev nD) (t : Fin cfg0.N) (h3 : t.val % 4 = 3)
    (hX : ∀ i, ∃ r : ℝ, xIn m c i = (r : EReal)) (hW : ∀ i, ∃ r : ℝ, wIn m c i = (r : EReal))
    (hs : ∃ r : ℝ, sIn m c ix0 = (r : EReal))
    (y : S1024x1024.Idx) (i : S8192x4096.Idx)
    (hi0 : (i 0).val = 1024 * (t.val / 16) + (y 0).val) (hi1 : (i 1).val = 1024 * (t.val / 4 % 4) + (y 1).val) :
    (outsAt0 m c t.val t.isLt).1 y = QLinear.result (xIn m c) (wIn m c) (bIn m c) (sIn m c) i := by
  obtain ⟨p, q, rfl⟩ : ∃ (p q : Fin 1024), y = ix2 p q := ⟨y 0, y 1, eq_ix2 y⟩
  obtain ⟨r, o, rfl⟩ : ∃ (r : Fin 8192) (o : Fin 4096), i = ix2 r o := ⟨i 0, i 1, eq_ix2 i⟩
  rw [QLinear.result_ix2]
  exact entry_eq m c t h3 hX hW hs p q r o hi0 hi1

/-- WHAT A LAST-STRETCH POINT WRITES BACK is its tile of `result`. -/
theorem flushed_eq (c : Dev nD)
    (hX : ∀ i, ∃ r : ℝ, xIn m c i = (r : EReal)) (hW : ∀ i, ∃ r : ℝ, wIn m c i = (r : EReal))
    (hs : ∃ r : ℝ, sIn m c ix0 = (r : EReal)) (t : Fin cfg0.N) (hf : (cfg0.win 4).flush t = true) :
    (dats m 0 c).flushed 4 t = ((cfg0.win 4).blk t).view.read (Elt Ideal) (QLinear.result (xIn m c) (wIn m c) (bIn m c) (sIn m c)) := by
  have h3 : t.val % 4 = 3 := (flush0_4 t).mp hf
  obtain ⟨-, -, -, -, -, -, -, -, e0, e1⟩ := tile_of_point t
  rw [Cert.KernelIdeal.Value.flushed4]
  funext j
  show (outsAt0 m c t.val t.isLt).1 j = QLinear.result (xIn m c) (wIn m c) (bIn m c) (sIn m c) (((cfg0.win 4).blk t).view.emb j)
  refine entry_eq' m c t h3 hX hW hs j _ ?_ ?_
  · show win0_4.index t (0 : Fin 2) * 1024 + 1 * (j 0).val = 1024 * (t.val / 16) + (j 0).val; omega
  · show win0_4.index t (1 : Fin 2) * 1024 + 1 * (j 1).val = 1024 * (t.val / 4 % 4) + (j 1).val; omega

/-- An entry of the array is in point `t`'s tile iff each coordinate is in the tile's range on its axis. -/
theorem mem_tile (t : Fin cfg0.N) (i : S8192x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v2).slice (win0_4.rect t)).set ↔ _
  rw [View.set_slice_whole, Rect.mem_set_unit]
  exact Iff.rfl

/-- Every entry of the output is in the tile some last-stretch point writes back. -/
theorem covered (i : S8192x4096.Idx) :
    ∃ t : Fin cfg0.N, (cfg0.win 4).flush t = true ∧ i ∈ ((cfg0.win 4).blk t).view.set := by
  have h0 : (i 0).val < 8192 := (i 0).isLt
  have h1 : (i 1).val < 4096 := (i 1).isLt
  have hlt : 16 * ((i 0).val / 1024) + 4 * ((i 1).val / 1024) + 3 < cfg0.N :=
    lt_of_lt_of_eq (show 16 * ((i 0).val / 1024) + 4 * ((i 1).val / 1024) + 3 < 128 by omega) (show cfg0.N = 128 from N_0).symm
  obtain ⟨-, -, -, -, -, -, -, -, e0, e1⟩ := tile_of_point ⟨_, hlt⟩
  have e0' : win0_4.index ⟨_, hlt⟩ (0 : Fin 2) = (16 * ((i 0).val / 1024) + 4 * ((i 1).val / 1024) + 3) / 16 := e0
  have e1' : win0_4.index ⟨_, hlt⟩ (1 : Fin 2) = (16 * ((i 0).val / 1024) + 4 * ((i 1).val / 1024) + 3) / 4 % 4 := e1
  refine ⟨⟨_, hlt⟩, (flush0_4 _).mpr (by show (16 * ((i 0).val / 1024) + 4 * ((i 1).val / 1024) + 3) % 4 = 3; omega), ?_⟩
  rw [mem_tile]
  intro a
  match a with
  | ⟨0, _⟩ =>
    show win0_4.index ⟨_, hlt⟩ (0 : Fin 2) * 1024 ≤ (i 0).val ∧ (i 0).val < win0_4.index ⟨_, hlt⟩ (0 : Fin 2) * 1024 + 1024
    omega
  | ⟨1, _⟩ =>
    show win0_4.index ⟨_, hlt⟩ (1 : Fin 2) * 1024 ≤ (i 1).val ∧ (i 1).val < win0_4.index ⟨_, hlt⟩ (1 : Fin 2) * 1024 + 1024
    omega

/-- THE OUTPUT ARRAY after the run is `result` of the four arguments. -/
theorem final (c : Dev nD)
    (hX : ∀ i, ∃ r : ℝ, xIn m c i = (r : EReal)) (hW : ∀ i, ∃ r : ℝ, wIn m c i = (r : EReal))
    (hs : ∃ r : ℝ, sIn m c ix0 = (r : EReal)) :
    (dats m 0 c).arrAt 4 cfg0.N = QLinear.result (xIn m c) (wIn m c) (bIn m c) (sIn m c) :=
  (dats m 0 c).arrAt_eq_of_cover 4 _ (fun t hf => flushed_eq m c hX hW hs t hf) covered

end QLinear.Kernel

end
-- ==== Proof.ReferenceValue.lean ====
/-
  The reference computes `result`: its six operations — the scale spread over the weight's shape, the elementwise
  product, the contraction of x's and the scaled weight's last axes, the bias spread over the rows, the sum — read at
  one output entry (t, o) are  Σ_k x(t, k) · (w(o, k) · s) + bias(o).
-/
import proofs.«134363_j52793738002579_1_alg».proof.Proof.Gen.ReferenceIdeal.Read
import proofs.«134363_j52793738002579_1_alg».proof.Proof.Result

noncomputable section

namespace QLinear.Reference

open Cert.ReferenceIdeal Cert.ReferenceIdeal.Read Idealize.ShloMosaic Idealize.ShloMosaic.ValueIdx

theorem left_index (r : Fin 8192) (o k : Fin 4096) : lidx_main_v2 (ix2 r o) k = ix2 r k :=
  funext fun a => Fin.ext (by match a with | ⟨0, _⟩ => rfl | ⟨1, _⟩ => rfl)

theorem right_index (r : Fin 8192) (o k : Fin 4096) : ridx_main_v2 (ix2 r o) k = ix2 o k :=
  funext fun a => Fin.ext (by match a with | ⟨0, _⟩ => rfl | ⟨1, _⟩ => rfl)

theorem bias_index (r : Fin 8192) (o : Fin 4096) : idx_main_v3 (idx_main_v4 (ix2 r o)) = ix1 o :=
  funext fun a => Fin.ext (by match a with | ⟨0, _⟩ => rfl)

theorem scale_index (j : S4096x4096.Idx) : idx_main_v0 j = ix0 := funext fun a => a.elim0

/-- The reference's last stage is `result` of the four arguments. -/
theorem value_eq (x0 : S8192x4096.Idx → EReal) (x1 : S4096x4096.Idx → EReal) (x2 : S4096.Idx → EReal) (x3 : S_.Idx → EReal) :
    val_main_v5 (F := Ideal) x0 x1 x2 x3 = QLinear.result x0 x1 x2 x3 := by
  funext i
  obtain ⟨r, o, rfl⟩ : ∃ (r : Fin 8192) (o : Fin 4096), i = ix2 r o := ⟨i 0, i 1, eq_ix2 i⟩
  rw [QLinear.result_ix2, val_main_v5_apply, val_main_v2_apply, val_main_v4_apply, val_main_v3_apply, bias_index]
  refine congrArg₂ (fun a b : EReal => a + b) (Finset.sum_congr rfl fun k _ => ?_) rfl
  rw [left_index, right_index, val_main_v1_apply, val_main_v0_apply, scale_index]
  rfl

end QLinear.Reference

end
-- ==== Proof.FiniteInputs.lean ====
/-
  What the precondition says, entry by entry: every entry of x, of w, of the bias and the scale is a REAL number.

  The precondition is the conjunction of four tests "every |entry| is below +∞", each an all-reduction by `and` of a
  compare against the bit pattern of +∞. An extended real whose absolute value max(v, -v) is below +∞ is neither
  +∞ nor -∞, hence a real.
-/
import proofs.«134363_j52793738002579_1_alg».proof.Pre_finite_inputs
import proofs.«134363_j52793738002579_1_alg».proof.Proof.Gen.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace QLinear.Finite

open Cert.Pre_finite_inputs Cert.Pre_finite_inputs.Facts Idealize.ShloMosaic Idealize.ShloMosaic.ValueIdx

instance : Subsingleton S_.Idx := ⟨fun a b => funext fun d => d.elim0⟩

/-- The pattern 0x7F800000 is +∞. -/
theorem inf_bits : Ideal.ofBits .f32 0x7F800000#32 = (⊤ : EReal) := by simp [Ideal.ofBits, Ideal.ieee]

/-- An extended real whose absolute value compares below +∞ is a real. -/
theorem real_of_abs_lt (v : EReal) (h : Ideal.cmp .olt (max v (-v)) (Ideal.ofBits .f32 0x7F800000#32) = 1#1) :
    ∃ r : ℝ, v = r := by
  rw [inf_bits] at h
  have hlt : max v (-v) < ⊤ := by
    unfold Ideal.cmp at h
    by_contra hn
    simp [hn] at h
  induction v using EReal.rec with
  | bot => simp at hlt
  | coe r => exact ⟨r, rfl⟩
  | top => simp at hlt

/-- One of the four tests: if "all |entries| < +∞" is 1, every entry is a real. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ix0 = 1#1) (i : s.Idx) : ∃ r : ℝ, x i = r := by
  have h := Host.reduce_andi_all _ _ hr hu ix0 e i
  have hc : broadcastInDim s ![] hb (constant (F := Ideal) S_ .f32 0x7F800000#32) i = Ideal.ofBits .f32 0x7F800000#32 :=
    broadcastInDim_apply _ hb _ i ix0 (fun a => a.elim0)
  have h' : Ideal.cmp .olt (max (x i) (-(x i))) (broadcastInDim s ![] hb (constant (F := Ideal) S_ .f32 0x7F800000#32) i) = 1#1 := h
  rw [hc] at h'
  exact real_of_abs_lt (x i) h'

/-- THE PRECONDITION, READ: all four inputs hold reals. -/
theorem of_pre (x0 : FVec Ideal S8192x4096 .f32) (x1 : FVec Ideal S4096x4096 .f32) (x2 : FVec Ideal S4096 .f32)
    (x3 : FVec Ideal S_ .f32) (h : fn (F := Ideal) x0 x1 x2 x3 = fun _ => 1#1) :
    (∀ i, ∃ r : ℝ, x0 i = r) ∧ (∀ i, ∃ r : ℝ, x1 i = r) ∧ (∀ i, ∃ r : ℝ, x2 i = r) ∧ (∃ r : ℝ, x3 ix0 = r) := by
  have h0 := congrFun h ix0
  dsimp only [fn, fn_part1] at h0
  obtain ⟨h012, h3⟩ := IntOp.andi_eq_one.mp h0
  obtain ⟨h01, h2⟩ := IntOp.andi_eq_one.mp h012
  obtain ⟨hx0, hx1⟩ := IntOp.andi_eq_one.mp h01
  refine ⟨real_of_all x0 _ _ _ hx0, real_of_all x1 _ _ _ hx1, real_of_all x2 _ _ _ h2, ?_⟩
  have h3' := Host.reduce_andi_all _ _ reducesTo_S_S_d h_S_ ix0 h3 ix0
  exact real_of_abs_lt (x3 ix0) h3'

end QLinear.Finite

end
-- ==== Proof.lean ====
/-
  A linear layer with a globally scaled weight, tiled on a TPU, against its textbook form.

  The reference is   y(r, o) = Σ_{k < 4096} x(r, k) · (w(o, k) · s) + bias(o)   for x : 8192 × 4096, w : 4096 × 4096.
  The kernel tiles the output 1024 × 1024 and the contraction into four stretches of 1024: over a grid of 8 × 4 × 4
  points it zeroes a scratch tile at a tile's first stretch, adds the product of the x tile with the transposed w tile
  at every stretch, and at the last stretch writes   scratch · s + bias   to the output tile. So it computes
  (0 + Σ_{stretch} Σ_{k < 1024} x · w) · s + bias, the scale applied AFTER the contraction.

  Over the extended reals the two agree when x, w and s are real — which the precondition (all inputs finite)
  says — and can differ otherwise (s = +∞, x = (1, -1), w = (1, 1): 0·∞ = 0 against ∞ - ∞ = -∞): so the value claim
  uses the precondition. The narrowing casts before the tile product are the identity on extended reals, and the
  idealization rewrote nothing, so the preservation claim is trivial.

  Modules: ScaledContraction (the algebra), Result (the common value), ReferenceValue (the reference computes it),
  Payloads / Pieces / Tiles / Accumulation / KernelValue (the kernel computes it), FiniteInputs (the precondition read
  entry by entry). The three frames are the generated ones; the reference's is its run with the value dropped.
-/
import proofs.«134363_j52793738002579_1_alg».proof.Defs
import proofs.«134363_j52793738002579_1_alg».proof.Proof.Gen.Kernel
import proofs.«134363_j52793738002579_1_alg».proof.Proof.Gen.Kernel.Skeleton
import proofs.«134363_j52793738002579_1_alg».proof.Proof.Gen.Kernel.Launch
import proofs.«134363_j52793738002579_1_alg».proof.Proof.Gen.Kernel.Points
import proofs.«134363_j52793738002579_1_alg».proof.Proof.Gen.Kernel.Frame
import proofs.«134363_j52793738002579_1_alg».proof.Proof.Gen.KernelIdeal
import proofs.«134363_j52793738002579_1_alg».proof.Proof.Gen.KernelIdeal.Skeleton
import proofs.«134363_j52793738002579_1_alg».proof.Proof.Gen.KernelIdeal.Launch
import proofs.«134363_j52793738002579_1_alg».proof.Proof.Gen.KernelIdeal.Points
import proofs.«134363_j52793738002579_1_alg».proof.Proof.Gen.KernelIdeal.Frame
import proofs.«134363_j52793738002579_1_alg».proof.Proof.Gen.ReferenceIdeal
import proofs.«134363_j52793738002579_1_alg».proof.Proof.Gen.Pre_finite_inputs
import proofs.«134363_j52793738002579_1_alg».proof.Proof.Gen.KernelIdeal.Value
import proofs.«134363_j52793738002579_1_alg».proof.Proof.Gen.ReferenceIdeal.Run
import proofs.«134363_j52793738002579_1_alg».proof.Proof.Gen.ReferenceIdeal.Read
import proofs.«134363_j52793738002579_1_alg».proof.Proof.KernelValue
import proofs.«134363_j52793738002579_1_alg».proof.Proof.ReferenceValue
import proofs.«134363_j52793738002579_1_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments, all finite, both programs end with
    y(r, o) = Σ_k x(r, k) · (w(o, k) · s) + bias(o) in their result arrays. -/
theorem algebraic : Cert.algebraic_KernelIdeal_ReferenceIdeal := by
  intro m ρ m' ρ' hpre hagree
  refine ⟨fun c => QLinear.result (QLinear.Kernel.xIn m c) (QLinear.Kernel.wIn m c) (QLinear.Kernel.bIn m c) (QLinear.Kernel.sIn m c), ?_, ?_⟩
  · refine (θ_run Cert.KernelIdeal.defs _ _).mono (fun r h c => ⟨(h c).1.trans ?_, (h c).2⟩)
      (Cert.KernelIdeal.Value.run_blocks (F := Ideal) m ρ)
    obtain ⟨hX, hW, -, hs⟩ := QLinear.Finite.of_pre _ _ _ _ (hpre c)
    exact QLinear.Kernel.final m c hX hW hs
  · refine (θ_run Cert.ReferenceIdeal.defs _ _).mono (fun r h c => ⟨(h c).1.trans ?_, (h c).2⟩)
      (Cert.ReferenceIdeal.Value.run (F := Ideal) m' ρ')
    refine ((Cert.ReferenceIdeal.Read.val_main_v5_eq _ _ _ _).trans (QLinear.Reference.value_eq _ _ _ _)).trans ?_
    rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
